-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512 : Shape := ⟨2, ![64, 512]⟩
abbrev S1024x128 : Shape := ⟨2, ![1024, 128]⟩
abbrev S128 : Shape := ⟨1, ![128]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x512x1024 .f32) (main_arg1 : IVec S64x512 32) (main_arg2 : FVec F S1024x128 .f32) (main_arg3 : FVec F S128 .f32) (main_arg4 : FVec F S128 .f32) (main_arg5 : FVec F S128 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S64x512x1024 : Shape := ⟨3, ![64, 512, 1024]⟩
abbrev S64x512 : Shape := ⟨2, ![64, 512]⟩
abbrev S1024x128 : Shape := ⟨2, ![1024, 128]⟩
abbrev S128 : Shape := ⟨1, ![128]⟩
abbrev S64x1 : Shape := ⟨2, ![64, 1]⟩
abbrev S_ : Shape := ⟨0, ![]⟩
abbrev S64x511 : Shape := ⟨2, ![64, 511]⟩
abbrev S64x512x1 : Shape := ⟨3, ![64, 512, 1]⟩
abbrev S1x128 : Shape := ⟨2, ![1, 128]⟩
abbrev S64x512x128 : Shape := ⟨3, ![64, 512, 128]⟩
abbrev S1x512x1024 : Shape := ⟨3, ![1, 512, 1024]⟩
abbrev S1x512x1 : Shape := ⟨3, ![1, 512, 1]⟩
abbrev S1x512x128 : Shape := ⟨3, ![1, 512, 128]⟩
abbrev S512x1024 : Shape := ⟨2, ![512, 1024]⟩
abbrev S512x128 : Shape := ⟨2, ![512, 128]⟩
abbrev S512x1 : Shape := ⟨2, ![512, 1]⟩

abbrev nBuf : Space → Nat
  | .hbm => 27
  | .vmem => 12
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S1024x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x512, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x511, .f32⟩
  | .hbm, ⟨11, _⟩ => ⟨S64x512, .f32⟩
  | .hbm, ⟨12, _⟩ => ⟨S64x511, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x512, .f32⟩
  | .hbm, ⟨17, _⟩ => ⟨S64x512, .i1⟩
  | .hbm, ⟨18, _⟩ => ⟨S64x512, .f32⟩
  | .hbm, ⟨19, _⟩ => ⟨S64x512x1, .f32⟩
  | .hbm, ⟨20, _⟩ => ⟨S64x512, .i1⟩
  | .hbm, ⟨21, _⟩ => ⟨S64x512, .f32⟩
  | .hbm, ⟨22, _⟩ => ⟨S64x512x1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S64x512x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x128, .f32⟩
  | .local _ .vmem, ⟨11, _⟩ => ⟨S1x512x128, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S64x512_S64x1_0_0 : S64x512.Slices ![0, 0] S64x1
  bcast_S_S64x1 : S_.BroadcastsInDim S64x1 (![] : Fin 0 → Fin S64x1.rank)
  slices_S64x512_S64x511_0_0 : S64x512.Slices ![0, 0] S64x511
  concatenates_S64x1_S64x511_S64x512_d1 : Shape.Concatenates [S64x1, S64x511] S64x512 1
  slices_S64x512_S64x511_0_1 : S64x512.Slices ![0, 1] S64x511
  concatenates_S64x511_S64x1_S64x512_d1 : Shape.Concatenates [S64x511, S64x1] S64x512 1
  bcast_S64x512_S64x512x1_0_1 : S64x512.BroadcastsInDim S64x512x1 (![0, 1] : Fin 2 → Fin S64x512x1.rank)
  shapeCasts_S128_S1x128 : S128.ShapeCasts S1x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x128 : S512x1.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S64x512x1.size a
  hwx0_5 : ∀ i : grid0.Coords, EltTy.bits .f32 = 32 ∨ (Rect.block (s := S64x512x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S64x512x1.size a
  hwx0_6 : ∀ i : grid0.Coords, EltTy.bits .f32 = 32 ∨ (Rect.block (s := S64x512x1) S1x512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S64x512x128.size a
  hwx0_7 : ∀ i : grid0.Coords, EltTy.bits .f32 = 32 ∨ (Rect.block (s := S64x512x128) S1x512x128.size (cc0_transform_7 i) (hinb0_7 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512 : Shape := ⟨2, ![64, 512]⟩
abbrev S1024x128 : Shape := ⟨2, ![1024, 128]⟩
abbrev S128 : Shape := ⟨1, ![128]⟩
abbrev S64x512x128 : Shape := ⟨3, ![64, 512, 128]⟩
abbrev S1x1x128 : Shape := ⟨3, ![1, 1, 128]⟩
abbrev S64x512x1 : Shape := ⟨3, ![64, 512, 1]⟩
abbrev S64x1x1 : Shape := ⟨3, ![64, 1, 1]⟩
abbrev S_ : Shape := ⟨0, ![]⟩
abbrev S64x511x1 : Shape := ⟨3, ![64, 511, 1]⟩

abbrev nBuf : Space → Nat
  | .hbm => 36
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S1024x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x512x128, .f32⟩
  | .hbm, ⟨7, _⟩ => ⟨S1x1x128, .f32⟩
  | .hbm, ⟨8, _⟩ => ⟨S64x512x128, .f32⟩
  | .hbm, ⟨9, _⟩ => ⟨S64x512x128, .f32⟩
  | .hbm, ⟨10, _⟩ => ⟨S64x512, .f32⟩
  | .hbm, ⟨11, _⟩ => ⟨S64x512x1, .f32⟩
  | .hbm, ⟨12, _⟩ => ⟨S64x1x1, .f32⟩
  | .hbm, ⟨13, _⟩ => ⟨S_, .f32⟩
  | .hbm, ⟨14, _⟩ => ⟨S64x1x1, .f32⟩
  | .hbm, ⟨15, _⟩ => ⟨S64x511x1, .f32⟩
  | .hbm, ⟨16, _⟩ => ⟨S64x512x1, .f32⟩
  | .hbm, ⟨17, _⟩ => ⟨S64x512x1, .i1⟩
  | .hbm, ⟨18, _⟩ => ⟨S64x512x1, .f32⟩
  | .hbm, ⟨19, _⟩ => ⟨S64x511x1, .f32⟩
  | .hbm, ⟨20, _⟩ => ⟨S64x1x1, .f32⟩
  | .hbm, ⟨21, _⟩ => ⟨S_, .f32⟩
  | .hbm, ⟨22, _⟩ => ⟨S64x1x1, .f32⟩
  | .hbm, ⟨23, _⟩ => ⟨S64x512x1, .f32⟩
  | .hbm, ⟨24, _⟩ => ⟨S64x512x1, .i1⟩
  | .hbm, ⟨25, _⟩ => ⟨S64x512x1, .f32⟩
  | .hbm, ⟨26, _⟩ => ⟨S1x1x128, .f32⟩
  | .hbm, ⟨27, _⟩ => ⟨S64x512x128, .f32⟩
  | .hbm, ⟨28, _⟩ => ⟨S64x512x128, .f32⟩
  | .hbm, ⟨29, _⟩ => ⟨S64x512x128, .f32⟩
  | .hbm, ⟨30, _⟩ => ⟨S64x512x128, .f32⟩
  | .hbm, ⟨31, _⟩ => ⟨S1x1x128, .f32⟩
  | .hbm, ⟨32, _⟩ => ⟨S64x512x128, .f32⟩
  | .hbm, ⟨33, _⟩ => ⟨S64x512x128, .f32⟩
  | .hbm, ⟨34, _⟩ => ⟨S64x512x128, .f32⟩
  | .hbm, ⟨35, _⟩ => ⟨S64x512x128, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S64x512_S64x512x1_0_1 : S64x512.BroadcastsInDim S64x512x1 (![0, 1] : Fin 2 → Fin S64x512x1.rank)
  slices_S64x512x1_S64x1x1_0_0_0 : S64x512x1.Slices ![0, 0, 0] S64x1x1
  bcast_S_S64x1x1 : S_.BroadcastsInDim S64x1x1 (![] : Fin 0 → Fin S64x1x1.rank)
  slices_S64x512x1_S64x511x1_0_0_0 : S64x512x1.Slices ![0, 0, 0] S64x511x1
  concatenates_S64x1x1_S64x511x1_S64x512x1_d1 : Shape.Concatenates [S64x1x1, S64x511x1] S64x512x1 1
  slices_S64x512x1_S64x511x1_0_1_0 : S64x512x1.Slices ![0, 1, 0] S64x511x1
  concatenates_S64x511x1_S64x1x1_S64x512x1_d1 : Shape.Concatenates [S64x511x1, S64x1x1] S64x512x1 1
  bcast_S64x512x1_S64x512x128_0_1_2 : S64x512x1.BroadcastsInDim S64x512x128 (![0, 1, 2] : Fin 3 → Fin S64x512x128.rank)
  dot_S64x512x1024_S1024x128_S64x512x128_2_0_01_1_n_n_wf : DotDims.WF S64x512x1024 S1024x128 S64x512x128 [2] [0] [0, 1] [1] [] []

variable [Facts₀]

def dot_S64x512x1024_S1024x128_S64x512x128_2_0_01_1_n_n : DotDims S64x512x1024 S1024x128 S64x512x128 where
  lhsContracting := [2]
  rhsContracting := [0]
  lhsNonContracting := [0, 1]
  rhsNonContracting := [1]
  lhsBatch := []
  rhsBatch := []
  wf := dot_S64x512x1024_S1024x128_S64x512x128_2_0_01_1_n_n_wf

class Facts : Prop extends Facts₀ where

variable [Facts]
-- ==== Proof.Spec.lean ====
/-
  The energies of a linear-chain model, as one function of the arguments, entry by entry.

  For a batch row `b`, a step `t` and a unit `u`:
    energy b t u = ((Σ_d x[b, t, d] · w[d, u]) + bias[u]) + start[b, t] · left[u] + end[b, t] · right[u],
  where `start[b, t]` is 1 when the mask at step `t` exceeds the mask one step earlier (zero before the first
  step) and 0 otherwise, and `end[b, t]` is 1 when the mask one step later (zero after the last step) exceeds the
  mask at step `t`. The mask is an integer array read as a signed number; the two comparisons are made on those numbers
  as extended reals and their one-bit answers read as 0 or 1.

  Also here: a two-piece join along an axis read at an index, for the two joins the shifts are built from (a zero
  column in front of the first 511 columns; the last 511 columns with a zero column behind), with and without a
  trailing axis of extent one.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Spec

open Idealize.ShloMosaic Idealize.ShloMosaic.ValueIdx

/-- The mask's entry as a number. -/
def mval (mask : (⟨2, ![64, 512]⟩ : Shape).Idx → BitVec 32) (b : Fin 64) (t : Fin 512) : EReal :=
  FloatOps.sitofp (F := Ideal) .f32 (mask (ix2 b t))

/-- The number the zero pattern denotes. -/
def zeroV : EReal := FloatOps.ofBits (F := Ideal) .f32 0x00000000#32

/-- The mask one step earlier; zero before the first step. -/
def prevV (mask : (⟨2, ![64, 512]⟩ : Shape).Idx → BitVec 32) (b : Fin 64) (t : Fin 512) : EReal :=
  if h : t.val = 0 then zeroV else mval mask b ⟨t.val - 1, by have := t.isLt; omega⟩

/-- The mask one step later; zero after the last step. -/
def nextV (mask : (⟨2, ![64, 512]⟩ : Shape).Idx → BitVec 32) (b : Fin 64) (t : Fin 512) : EReal :=
  if h : t.val < 511 then mval mask b ⟨t.val + 1, by omega⟩ else zeroV

/-- 1 where the mask rises into step `t`, else 0. -/
def startV (mask : (⟨2, ![64, 512]⟩ : Shape).Idx → BitVec 32) (b : Fin 64) (t : Fin 512) : EReal :=
  FloatOps.uitofp (F := Ideal) .f32 (FloatOps.cmpf (F := Ideal) (φ := .f32) .ogt (mval mask b t) (prevV mask b t))

/-- 1 where the mask rises out of step `t`, else 0. -/
def endV (mask : (⟨2, ![64, 512]⟩ : Shape).Idx → BitVec 32) (b : Fin 64) (t : Fin 512) : EReal :=
  FloatOps.uitofp (F := Ideal) .f32 (FloatOps.cmpf (F := Ideal) (φ := .f32) .ogt (nextV mask b t) (mval mask b t))

/-- The energies, entry by entry. -/
def energy (x : (⟨3, ![64, 512, 1024]⟩ : Shape).Idx → EReal) (mask : (⟨2, ![64, 512]⟩ : Shape).Idx → BitVec 32)
    (w : (⟨2, ![1024, 128]⟩ : Shape).Idx → EReal) (bias left right : (⟨1, ![128]⟩ : Shape).Idx → EReal) :
    (⟨3, ![64, 512, 128]⟩ : Shape).Idx → EReal := fun i =>
  ((∑ d : Fin 1024, x (ix3 (i 0) (i 1) d) * w (ix2 d (i 2))) + bias (ix1 (i 2)))
    + startV mask (i 0) (i 1) * left (ix1 (i 2)) + endV mask (i 0) (i 1) * right (ix1 (i 2))

theorem energy_apply (x : (⟨3, ![64, 512, 1024]⟩ : Shape).Idx → EReal) (mask : (⟨2, ![64, 512]⟩ : Shape).Idx → BitVec 32)
    (w : (⟨2, ![1024, 128]⟩ : Shape).Idx → EReal) (bias left right : (⟨1, ![128]⟩ : Shape).Idx → EReal)
    (b : Fin 64) (t : Fin 512) (u : Fin 128) :
    energy x mask w bias left right (ix3 b t u)
      = ((∑ d : Fin 1024, x (ix3 b t d) * w (ix2 d u)) + bias (ix1 u))
        + startV mask b t * left (ix1 u) + endV mask b t * right (ix1 u) := rfl

/-! ## The two joins, read at an index -/

section Joins
variable {α : Type}

/-- A column in front of 511 columns: the first column of the join is the single column, column `t > 0` is column
    `t - 1` of the wide piece. -/
theorem joinFront2 (z : (⟨2, ![64, 1]⟩ : Shape).Idx → α) (y : (⟨2, ![64, 511]⟩ : Shape).Idx → α)
    (h : Shape.Concatenates [⟨2, ![64, 1]⟩, ⟨2, ![64, 511]⟩] ⟨2, ![64, 512]⟩ 1) (b : Fin 64) (t : Fin 512) :
    concatenate ⟨2, ![64, 512]⟩ 1 [⟨⟨2, ![64, 1]⟩, z⟩, ⟨⟨2, ![64, 511]⟩, y⟩] h (ix2 b t)
      = if ht : t.val = 0 then z (ix2 b 0) else y (ix2 b ⟨t.val - 1, by have := t.isLt; omega⟩) := by
  by_cases ht : t.val = 0
  · rw [dif_pos ht]
    refine concatenate_pair_apply_left 1 z y h (ix2 b t) rfl (ix2 b 0) fun a => ?_
    match a with
    | ⟨0, _⟩ => rfl
    | ⟨1, _⟩ => exact ht.symm
  · rw [dif_neg ht]
    refine concatenate_pair_apply_right 1 z y h (ix2 b t) rfl rfl (ix2 b ⟨t.val - 1, by have := t.isLt; omega⟩) (fun a ha => ?_) ?_
    · match a with
      | ⟨0, _⟩ => rfl
      | ⟨1, _⟩ => exact absurd rfl ha
    · show t.val - 1 + 1 = t.val
      omega

/-- 511 columns with a column behind: column `t < 511` of the join is column `t` of the wide piece, the last is the
    single column. -/
theorem joinBack2 (y : (⟨2, ![64, 511]⟩ : Shape).Idx → α) (z : (⟨2, ![64, 1]⟩ : Shape).Idx → α)
    (h : Shape.Concatenates [⟨2, ![64, 511]⟩, ⟨2, ![64, 1]⟩] ⟨2, ![64, 512]⟩ 1) (b : Fin 64) (t : Fin 512) :
    concatenate ⟨2, ![64, 512]⟩ 1 [⟨⟨2, ![64, 511]⟩, y⟩, ⟨⟨2, ![64, 1]⟩, z⟩] h (ix2 b t)
      = if ht : t.val < 511 then y (ix2 b ⟨t.val, ht⟩) else z (ix2 b 0) := by
  by_cases ht : t.val < 511
  · rw [dif_pos ht]
    refine concatenate_pair_apply_left 1 y z h (ix2 b t) rfl (ix2 b ⟨t.val, ht⟩) fun a => ?_
    match a with
    | ⟨0, _⟩ => rfl
    | ⟨1, _⟩ => rfl
  · rw [dif_neg ht]
    refine concatenate_pair_apply_right 1 y z h (ix2 b t) rfl rfl (ix2 b 0) (fun a ha => ?_) ?_
    · match a with
      | ⟨0, _⟩ => rfl
      | ⟨1, _⟩ => exact absurd rfl ha
    · show 0 + 511 = t.val
      have := t.isLt; omega

/-- The same front join with a trailing axis of extent one. -/
theorem joinFront3 (z : (⟨3, ![64, 1, 1]⟩ : Shape).Idx → α) (y : (⟨3, ![64, 511, 1]⟩ : Shape).Idx → α)
    (h : Shape.Concatenates [⟨3, ![64, 1, 1]⟩, ⟨3, ![64, 511, 1]⟩] ⟨3, ![64, 512, 1]⟩ 1) (b : Fin 64) (t : Fin 512) (e : Fin 1) :
    concatenate ⟨3, ![64, 512, 1]⟩ 1 [⟨⟨3, ![64, 1, 1]⟩, z⟩, ⟨⟨3, ![64, 511, 1]⟩, y⟩] h (ix3 b t e)
      = if ht : t.val = 0 then z (ix3 b 0 e) else y (ix3 b ⟨t.val - 1, by have := t.isLt; omega⟩ e) := by
  by_cases ht : t.val = 0
  · rw [dif_pos ht]
    refine concatenate_pair_apply_left 1 z y h (ix3 b t e) rfl (ix3 b 0 e) fun a => ?_
    match a with
    | ⟨0, _⟩ => rfl
    | ⟨1, _⟩ => exact ht.symm
    | ⟨2, _⟩ => rfl
  · rw [dif_neg ht]
    refine concatenate_pair_apply_right 1 z y h (ix3 b t e) rfl rfl (ix3 b ⟨t.val - 1, by have := t.isLt; omega⟩ e) (fun a ha => ?_) ?_
    · match a with
      | ⟨0, _⟩ => rfl
      | ⟨1, _⟩ => exact absurd rfl ha
      | ⟨2, _⟩ => rfl
    · show t.val - 1 + 1 = t.val
      omega

/-- The same back join with a trailing axis of extent one. -/
theorem joinBack3 (y : (⟨3, ![64, 511, 1]⟩ : Shape).Idx → α) (z : (⟨3, ![64, 1, 1]⟩ : Shape).Idx → α)
    (h : Shape.Concatenates [⟨3, ![64, 511, 1]⟩, ⟨3, ![64, 1, 1]⟩] ⟨3, ![64, 512, 1]⟩ 1) (b : Fin 64) (t : Fin 512) (e : Fin 1) :
    concatenate ⟨3, ![64, 512, 1]⟩ 1 [⟨⟨3, ![64, 511, 1]⟩, y⟩, ⟨⟨3, ![64, 1, 1]⟩, z⟩] h (ix3 b t e)
      = if ht : t.val < 511 then y (ix3 b ⟨t.val, ht⟩ e) else z (ix3 b 0 e) := by
  by_cases ht : t.val < 511
  · rw [dif_pos ht]
    refine concatenate_pair_apply_left 1 y z h (ix3 b t e) rfl (ix3 b ⟨t.val, ht⟩ e) fun a => ?_
    match a with
    | ⟨0, _⟩ => rfl
    | ⟨1, _⟩ => rfl
    | ⟨2, _⟩ => rfl
  · rw [dif_neg ht]
    refine concatenate_pair_apply_right 1 y z h (ix3 b t e) rfl rfl (ix3 b 0 e) (fun a ha => ?_) ?_
    · match a with
      | ⟨0, _⟩ => rfl
      | ⟨1, _⟩ => exact absurd rfl ha
      | ⟨2, _⟩ => rfl
    · show 0 + 511 = t.val
      have := t.isLt; omega

end Joins

end Cert.Spec

end
-- ==== Proof.RefIsSpec.lean ====
/-
  The reference computes the energies of `Spec.lean`.

  Its result is `((x · w + bias) + start · left) + end · right` over [64, 512, 128]: the product is the contraction of
  `x`'s last axis with `w`'s first, each vector is laid along the last axis, and the two gates are computed on the mask
  carried with a trailing axis of extent one — the mask against itself shifted one step either way with a zero filled
  in — and then laid along the last axis too. Entry by entry that is the specification.
-/
import proofs.«102657_j1254130451065_1_alg».proof.Proof.RefReadPatched
import proofs.«102657_j1254130451065_1_alg».proof.Proof.Spec

noncomputable section

open scoped BigOperators

namespace Cert.ReferenceIdeal.RefSpec

open Cert.ReferenceIdeal Cert.ReferenceIdeal.ReadP Idealize.ShloMosaic Idealize.ShloMosaic.ValueIdx Cert.Spec

variable (x1 : (⟨S64x512, .i32⟩ : BufTy).Contents (Elt Ideal))

/-- The mask with its trailing unit axis, at `(b, t, 0)`, is the mask's number at `(b, t)`. -/
theorem mask3_apply (b : Fin 64) (t : Fin 512) (e : Fin 1) :
    val_main_v5 (F := Ideal) x1 (ix3 b t e) = mval x1 b t := by
  rw [val_main_v5_apply, val_main_v4_apply]
  have hi : idx_main_v5 (ix3 b t e) = ix2 b t := funext fun a => Fin.ext (by
    match a with
    | ⟨0, _⟩ => rfl
    | ⟨1, _⟩ => rfl)
  rw [hi]
  rfl

/-- The zero column of either join. -/
theorem zcol7_apply (i : S64x1x1.Idx) : val_main_v7 (F := Ideal) i = zeroV := by
  rw [val_main_v7_apply, val_main_cst_apply]; rfl

theorem zcol14_apply (i : S64x1x1.Idx) : val_main_v14 (F := Ideal) i = zeroV := by
  rw [val_main_v14_apply, val_main_cst_0_apply]; rfl

/-- The mask shifted one step later (a zero in front): the mask one step earlier. -/
theorem shiftR_apply (b : Fin 64) (t : Fin 512) (e : Fin 1) :
    val_main_v9 (F := Ideal) x1 (ix3 b t e) = prevV x1 b t := by
  unfold val_main_v9
  rw [joinFront3]
  unfold prevV
  by_cases ht : t.val = 0
  · rw [dif_pos ht, dif_pos ht, zcol7_apply]
  · rw [dif_neg ht, dif_neg ht, val_main_v8_apply]
    have hi : idx_main_v8 (ix3 b (⟨t.val - 1, by have := t.isLt; omega⟩ : Fin 511) e)
        = ix3 b (⟨t.val - 1, by have := t.isLt; omega⟩ : Fin 512) e := funext fun a => Fin.ext (by
      match a with
      | ⟨0, _⟩ => rfl
      | ⟨1, _⟩ => rfl
      | ⟨2, _⟩ => rfl)
    rw [hi, mask3_apply]

/-- The mask shifted one step earlier (a zero behind): the mask one step later. -/
theorem shiftL_apply (b : Fin 64) (t : Fin 512) (e : Fin 1) :
    val_main_v15 (F := Ideal) x1 (ix3 b t e) = nextV x1 b t := by
  unfold val_main_v15
  rw [joinBack3]
  unfold nextV
  by_cases ht : t.val < 511
  · rw [dif_pos ht, dif_pos ht, val_main_v12_apply]
    have hi : idx_main_v12 (ix3 b (⟨t.val, ht⟩ : Fin 511) e)
        = ix3 b (⟨t.val + 1, by omega⟩ : Fin 512) e := funext fun a => Fin.ext (by
      match a with
      | ⟨0, _⟩ => rfl
      | ⟨1, _⟩ => exact Nat.add_comm 1 t.val
      | ⟨2, _⟩ => rfl)
    rw [hi, mask3_apply]
  · rw [dif_neg ht, dif_neg ht, zcol14_apply]

/-- The first gate at `(b, t, 0)`. -/
theorem start3_apply (b : Fin 64) (t : Fin 512) (e : Fin 1) :
    val_main_v11 (F := Ideal) x1 (ix3 b t e) = startV x1 b t := by
  rw [val_main_v11_apply, val_main_v10_apply, mask3_apply, shiftR_apply]
  rfl

/-- The second gate at `(b, t, 0)`. -/
theorem end3_apply (b : Fin 64) (t : Fin 512) (e : Fin 1) :
    val_main_v17 (F := Ideal) x1 (ix3 b t e) = endV x1 b t := by
  rw [val_main_v17_apply, val_main_v16_apply, mask3_apply, shiftL_apply]
  rfl

variable (x0 : (⟨S64x512x1024, .f32⟩ : BufTy).Contents (Elt Ideal)) (x2 : (⟨S1024x128, .f32⟩ : BufTy).Contents (Elt Ideal))
  (x3 x4 x5 : (⟨S128, .f32⟩ : BufTy).Contents (Elt Ideal))

/-- A vector laid along the last axis of [64, 512, 128] reads the vector's entry. -/
theorem bias_apply (b : Fin 64) (t : Fin 512) (u : Fin 128) :
    val_main_v2 (F := Ideal) x3 (ix3 b t u) = x3 (ix1 u) := by
  rw [val_main_v2_apply, val_main_v1_apply]
  exact congrArg x3 (funext fun a => Fin.ext (by match a with | ⟨0, _⟩ => rfl))

theorem left_apply (b : Fin 64) (t : Fin 512) (u : Fin 128) :
    val_main_v20 (F := Ideal) x4 (ix3 b t u) = x4 (ix1 u) := by
  rw [val_main_v20_apply, val_main_v18_apply]
  exact congrArg x4 (funext fun a => Fin.ext (by match a with | ⟨0, _⟩ => rfl))

theorem right_apply (b : Fin 64) (t : Fin 512) (u : Fin 128) :
    val_main_v25 (F := Ideal) x5 (ix3 b t u) = x5 (ix1 u) := by
  rw [val_main_v25_apply, val_main_v23_apply]
  exact congrArg x5 (funext fun a => Fin.ext (by match a with | ⟨0, _⟩ => rfl))

/-- The gates laid along the last axis. -/
theorem startB_apply (b : Fin 64) (t : Fin 512) (u : Fin 128) :
    val_main_v19 (F := Ideal) x1 (ix3 b t u) = startV x1 b t := by
  rw [val_main_v19_apply]
  have hi : idx_main_v19 (ix3 b t u) = ix3 b t (0 : Fin 1) := funext fun a => Fin.ext (by
    match a with
    | ⟨0, _⟩ => rfl
    | ⟨1, _⟩ => rfl
    | ⟨2, _⟩ => rfl)
  rw [hi, start3_apply]

theorem endB_apply (b : Fin 64) (t : Fin 512) (u : Fin 128) :
    val_main_v24 (F := Ideal) x1 (ix3 b t u) = endV x1 b t := by
  rw [val_main_v24_apply]
  have hi : idx_main_v24 (ix3 b t u) = ix3 b t (0 : Fin 1) := funext fun a => Fin.ext (by
    match a with
    | ⟨0, _⟩ => rfl
    | ⟨1, _⟩ => rfl
    | ⟨2, _⟩ => rfl)
  rw [hi, end3_apply]

/-- The contraction at `(b, t, u)`: the sum over `d` of `x[b, t, d] · w[d, u]`. -/
theorem prod_apply (b : Fin 64) (t : Fin 512) (u : Fin 128) :
    val_main_v0 (F := Ideal) x0 x2 (ix3 b t u) = ∑ d : Fin 1024, x0 (ix3 b t d) * x2 (ix2 d u) := by
  rw [val_main_v0_apply]
  refine Finset.sum_congr rfl fun d _ => ?_
  have hl : lidx_main_v0 (ix3 b t u) d = ix3 b t d := funext fun a => Fin.ext (by
    match a with
    | ⟨0, _⟩ => rfl
    | ⟨1, _⟩ => rfl
    | ⟨2, _⟩ => rfl)
  have hr : ridx_main_v0 (ix3 b t u) d = ix2 d u := funext fun a => Fin.ext (by
    match a with
    | ⟨0, _⟩ => rfl
    | ⟨1, _⟩ => rfl)
  rw [hl, hr]

/-- THE REFERENCE'S RESULT is the specification's energies. -/
theorem result_eq : val_main_v27 (F := Ideal) x0 x1 x2 x3 x4 x5 = energy x0 x1 x2 x3 x4 x5 := by
  funext i
  obtain ⟨b, t, u, rfl⟩ : ∃ (b : Fin 64) (t : Fin 512) (u : Fin 128), i = ix3 b t u := ⟨i 0, i 1, i 2, eq_ix3 i⟩
  rw [energy_apply, val_main_v27_apply, val_main_v22_apply, val_main_v3_apply, val_main_v21_apply, val_main_v26_apply,
    prod_apply, bias_apply, startB_apply, left_apply, endB_apply, right_apply]
  rfl

end Cert.ReferenceIdeal.RefSpec

end
-- ==== Proof.Payload.lean ====
/-
  What one grid step stores, entry by entry.

  A step holds one batch row: a [1, 512, 1024] block of `x`, the whole [1024, 128] weight, three [1, 128] rows (bias,
  left, right) and two [1, 512, 1] gate columns. It stores, at `(0, p, q)`,
    ((Σ_d x[0, p, d] · w[d, q]) + bias[0, q]) + start[0, p, 0] · left[0, q] + end[0, p, 0] · right[0, q]:
  the matrix product into a zero accumulator is the plain sum over the contracted coordinate (the narrowing of the
  operands is the identity on extended reals), a row laid down the 512 rows reads its own column, and a column laid
  across the 128 lanes reads its own row.
-/
import proofs.«102657_j1254130451065_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The product's operand indices, axis by axis -/

theorem lhs_row (i : S512x128.Idx) (k : dot_S512x1024_S1024x128_S512x128_1_0_0_1_n_n.contr.Idx) :
    (dot_S512x1024_S1024x128_S512x128_1_0_0_1_n_n.lhsIdx i k 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl

theorem lhs_col (i : S512x128.Idx) (k : dot_S512x1024_S1024x128_S512x128_1_0_0_1_n_n.contr.Idx) :
    (dot_S512x1024_S1024x128_S512x128_1_0_0_1_n_n.lhsIdx i k 1).val = (k ⟨0, by decide⟩).val :=
  dot_S512x1024_S1024x128_S512x128_1_0_0_1_n_n.lhsIdx_val_of_single rfl i k

theorem rhs_row (i : S512x128.Idx) (k : dot_S512x1024_S1024x128_S512x128_1_0_0_1_n_n.contr.Idx) :
    (dot_S512x1024_S1024x128_S512x128_1_0_0_1_n_n.rhsIdx i k 0).val = (k ⟨0, by decide⟩).val :=
  dot_S512x1024_S1024x128_S512x128_1_0_0_1_n_n.rhsIdx_val_of_single rfl i k

theorem rhs_col (i : S512x128.Idx) (k : dot_S512x1024_S1024x128_S512x128_1_0_0_1_n_n.contr.Idx) :
    (dot_S512x1024_S1024x128_S512x128_1_0_0_1_n_n.rhsIdx i k 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product into the zero accumulator at `(p, q)`: the sum over `d` of `L[p, d] · R[d, q]`. -/
theorem product_apply {φ₁ φ₂ : FTy} (L : FVec Ideal S512x1024 φ₁) (R : FVec Ideal S1024x128 φ₂) (p : Fin 512) (q : Fin 128) :
    FloatOps.matmul dot_S512x1024_S1024x128_S512x128_1_0_0_1_n_n none L R (constant S512x128 .f32 0x00000000#32) (ix2 p q)
      = ∑ d : Fin 1024, L (ix2 p d) * R (ix2 d q) := by
  rw [Ideal.matmul_constant_zero_apply, ← Equiv.sum_comp (contrEquiv1 dot_S512x1024_S1024x128_S512x128_1_0_0_1_n_n 1024 rfl rfl).symm]
  refine Finset.sum_congr rfl fun d _ => ?_
  have hd := contrEquiv1_symm_val dot_S512x1024_S1024x128_S512x128_1_0_0_1_n_n 1024 rfl rfl d
  have el : dot_S512x1024_S1024x128_S512x128_1_0_0_1_n_n.lhsIdx (ix2 p q) ((contrEquiv1 dot_S512x1024_S1024x128_S512x128_1_0_0_1_n_n 1024 rfl rfl).symm d) = ix2 p d := funext fun a => Fin.ext (by
    match a with
    | ⟨0, _⟩ => exact lhs_row _ _
    | ⟨1, _⟩ => exact (lhs_col _ _).trans hd)
  have er : dot_S512x1024_S1024x128_S512x128_1_0_0_1_n_n.rhsIdx (ix2 p q) ((contrEquiv1 dot_S512x1024_S1024x128_S512x128_1_0_0_1_n_n 1024 rfl rfl).symm d) = ix2 d q := funext fun a => Fin.ext (by
    match a with
    | ⟨0, _⟩ => exact (rhs_row _ _).trans hd
    | ⟨1, _⟩ => exact rhs_col _ _)
  rw [el, er]

/-! ## The layout pieces -/

/-- A [1, 128] row, recast to itself and laid down 512 rows, reads its own column. -/
theorem row_apply (v : Vec Ideal S1x128 .f32) (h1 : S1x128.ShapeCasts S1x128) (h2 : S1x128.Broadcasts S512x128) (p : Fin 512) (q : Fin 128) :
    broadcastTo S512x128 (shapeCast S1x128 v h1) h2 (ix2 p q) = v (ix2 (0 : Fin 1) q) :=
  (broadcastTo_1b_ab_apply _ h2 p q).trans (congrFun (shapeCast_self v h1) _)

/-- A [1, 512, 1] column, its leading axis dropped and laid across 128 lanes, reads its own row. -/
theorem col_apply (v : Vec Ideal S1x512x1 .f32) (h1 : S1x512x1.ShapeCasts S512x1) (h2 : S512x1.Broadcasts S512x128) (p : Fin 512) (q : Fin 128) :
    broadcastTo S512x128 (shapeCast S512x1 v h1) h2 (ix2 p q) = v (ix3 (0 : Fin 1) p (0 : Fin 1)) := by
  refine (broadcastTo_apply _ h2 (ix2 p q) (ix2 p (0 : Fin 1)) fun a => ?_).trans (shapeCast_1ab_ab_apply v h1 p (0 : Fin 1))
  match a with
  | ⟨0, _⟩ => show p.val = if (512 : Nat) = 1 then 0 else p.val; rw [if_neg (by decide)]
  | ⟨1, _⟩ => show 0 = if (1 : Nat) = 1 then 0 else q.val; rw [if_pos rfl]

/-- The product of the narrowed operands at `(p, q)`. -/
theorem narrowed_product_apply (v0 : Vec Ideal S1x512x1024 .f32) (v3 : Vec Ideal S1024x128 .f32)
    (h : S1x512x1024.ShapeCasts S512x1024) (hb : FTy.bf16.bits < FTy.f32.bits) (p : Fin 512) (q : Fin 128) :
    FloatOps.matmul (F := Ideal) dot_S512x1024_S1024x128_S512x128_1_0_0_1_n_n none (truncf (F := Ideal) .bf16 (shapeCast S512x1024 v0 h) hb) (truncf (F := Ideal) .bf16 v3 hb)
        (constant (F := Ideal) S512x128 .f32 0x00000000#32) (ix2 p q)
      = ∑ d : Fin 1024, v0 (ix3 (0 : Fin 1) p d) * v3 (ix2 d q) :=
  (product_apply _ _ p q).trans (Finset.sum_congr rfl fun d _ =>
    congrArg (· * v3 (ix2 d q)) (shapeCast_1ab_ab_apply v0 h p d))

/-! ## The stored value -/

/-- THE STORED VALUE at `(e, p, q)` of the step's block. -/
theorem stored_apply (v0 : Vec Ideal S1x512x1024 .f32) (v3 : Vec Ideal S1024x128 .f32) (v6 : Vec Ideal S1x128 .f32)
    (v10 : Vec Ideal S1x512x1 .f32) (v12 : Vec Ideal S1x128 .f32) (v18 : Vec Ideal S1x512x1 .f32) (v20 : Vec Ideal S1x128 .f32)
    (e : Fin 1) (p : Fin 512) (q : Fin 128) :
    k0_pay1 (F := Ideal) v0 v3 v6 v10 v12 v18 v20 (ix3 e p q)
      = ((∑ d : Fin 1024, v0 (ix3 (0 : Fin 1) p d) * v3 (ix2 d q)) + v6 (ix2 (0 : Fin 1) q))
        + v10 (ix3 (0 : Fin 1) p (0 : Fin 1)) * v12 (ix2 (0 : Fin 1) q)
        + v18 (ix3 (0 : Fin 1) p (0 : Fin 1)) * v20 (ix2 (0 : Fin 1) q) := by
  unfold k0_pay1
  refine (shapeCast_ab_1ab_apply _ _ e p q).trans ?_
  exact congrArg₂ (· + ·)
    (congrArg₂ (· + ·)
      (congrArg₂ (· + ·) (narrowed_product_apply v0 v3 _ _ p q) (row_apply v6 _ _ p q))
      (congrArg₂ (· * ·) (col_apply v10 _ _ p q) (row_apply v12 _ _ p q)))
    (congrArg₂ (· * ·) (col_apply v18 _ _ p q) (row_apply v20 _ _ p q))

end Cert.KernelIdeal.Pay

end
-- ==== Proof.HostSide.lean ====
/-
  What the region finds in the arrays the host prepared.

  Before the region the host reads the mask as numbers [64, 512], shifts it one step either way with a zero filled in,
  compares, reads the one-bit answers as 0 or 1 and adds a trailing axis of extent one: the two gate arrays
  [64, 512, 1], which at `(b, t, 0)` hold the specification's `start` and `end`. The three vectors are recast to
  [1, 128] rows, which at `(0, u)` hold the vector's entry `u`.
-/
import proofs.«102657_j1254130451065_1_alg».proof.Proof.Gen.KernelIdeal.Frame
import proofs.«102657_j1254130451065_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Spec

/-! ## The host's values, as functions of the mask -/

/-- The mask as numbers. -/
def maskF (x1 : (⟨S64x512, .i32⟩ : BufTy).Contents (Elt Ideal)) : (⟨S64x512, .f32⟩ : BufTy).Contents (Elt Ideal) :=
  sitofp (F := Ideal) .f32 x1

/-- A zero column. -/
def zeroCol : (⟨S64x1, .f32⟩ : BufTy).Contents (Elt Ideal) :=
  broadcastInDim S64x1 ![] bcast_S_S64x1 (constant (F := Ideal) S_ .f32 0x00000000#32)

/-- The mask one step later: a zero column in front of the first 511 columns. -/
def shiftR (x1 : (⟨S64x512, .i32⟩ : BufTy).Contents (Elt Ideal)) : (⟨S64x512, .f32⟩ : BufTy).Contents (Elt Ideal) :=
  concatenate S64x512 1 [⟨S64x1, zeroCol⟩, ⟨S64x511, extractStridedSlice S64x511 ![0, 0] (maskF x1) slices_S64x512_S64x511_0_0⟩] concatenates_S64x1_S64x511_S64x512_d1

/-- The mask one step earlier: the last 511 columns with a zero column behind. -/
def shiftL (x1 : (⟨S64x512, .i32⟩ : BufTy).Contents (Elt Ideal)) : (⟨S64x512, .f32⟩ : BufTy).Contents (Elt Ideal) :=
  concatenate S64x512 1 [⟨S64x511, extractStridedSlice S64x511 ![0, 1] (maskF x1) slices_S64x512_S64x511_0_1⟩, ⟨S64x1, zeroCol⟩] concatenates_S64x511_S64x1_S64x512_d1

/-- The first gate array. -/
def startArr (x1 : (⟨S64x512, .i32⟩ : BufTy).Contents (Elt Ideal)) : (⟨S64x512x1, .f32⟩ : BufTy).Contents (Elt Ideal) :=
  broadcastInDim S64x512x1 ![0, 1] bcast_S64x512_S64x512x1_0_1 (uitofp (F := Ideal) .f32 (cmpf (F := Ideal) (φ := .f32) .ogt (maskF x1) (shiftR x1)))

/-- The second gate array. -/
def endArr (x1 : (⟨S64x512, .i32⟩ : BufTy).Contents (Elt Ideal)) : (⟨S64x512x1, .f32⟩ : BufTy).Contents (Elt Ideal) :=
  broadcastInDim S64x512x1 ![0, 1] bcast_S64x512_S64x512x1_0_1 (uitofp (F := Ideal) .f32 (cmpf (F := Ideal) (φ := .f32) .ogt (shiftL x1) (maskF x1)))

/-- A vector as a [1, 128] row. -/
def rowOf (v : (⟨S128, .f32⟩ : BufTy).Contents (Elt Ideal)) : (⟨S1x128, .f32⟩ : BufTy).Contents (Elt Ideal) :=
  shapeCast S1x128 v shapeCasts_S128_S1x128

/-! ## Read at an index -/

variable (x1 : (⟨S64x512, .i32⟩ : BufTy).Contents (Elt Ideal))

theorem maskF_apply (b : Fin 64) (t : Fin 512) : maskF x1 (ix2 b t) = mval x1 b t := rfl

theorem shiftR_apply (b : Fin 64) (t : Fin 512) : shiftR x1 (ix2 b t) = prevV x1 b t := by
  unfold shiftR
  rw [joinFront2]
  unfold prevV
  by_cases ht : t.val = 0
  · rw [dif_pos ht, dif_pos ht]; rfl
  · rw [dif_neg ht, dif_neg ht]
    exact (slice2_axis1_apply 0 (maskF x1) slices_S64x512_S64x511_0_0 b ⟨t.val - 1, by have := t.isLt; omega⟩
      ⟨t.val - 1, by have := t.isLt; omega⟩ (Nat.zero_add _).symm)

theorem shiftL_apply (b : Fin 64) (t : Fin 512) : shiftL x1 (ix2 b t) = nextV x1 b t := by
  unfold shiftL
  rw [joinBack2]
  unfold nextV
  by_cases ht : t.val < 511
  · rw [dif_pos ht, dif_pos ht]
    exact (slice2_axis1_apply 1 (maskF x1) slices_S64x512_S64x511_0_1 b ⟨t.val, ht⟩ ⟨t.val + 1, by omega⟩ (Nat.add_comm _ _))
  · rw [dif_neg ht, dif_neg ht]; rfl

/-- The first gate array at `(b, t, 0)` is `start`. -/
theorem startArr_apply (b : Fin 64) (t : Fin 512) (e : Fin 1) : startArr x1 (ix3 b t e) = startV x1 b t := by
  unfold startArr
  refine (broadcastInDim_apply _ bcast_S64x512_S64x512x1_0_1 _ (ix3 b t e) (ix2 b t) fun a => ?_).trans ?_
  · match a with
    | ⟨0, _⟩ => show b.val = if (64 : Nat) = 1 then 0 else b.val; rw [if_neg (by decide)]
    | ⟨1, _⟩ => show t.val = if (512 : Nat) = 1 then 0 else t.val; rw [if_neg (by decide)]
  · show FloatOps.uitofp (F := Ideal) .f32 (FloatOps.cmpf (F := Ideal) (φ := .f32) .ogt (maskF x1 (ix2 b t)) (shiftR x1 (ix2 b t))) = _
    rw [shiftR_apply, maskF_apply]
    rfl

/-- The second gate array at `(b, t, 0)` is `end`. -/
theorem endArr_apply (b : Fin 64) (t : Fin 512) (e : Fin 1) : endArr x1 (ix3 b t e) = endV x1 b t := by
  unfold endArr
  refine (broadcastInDim_apply _ bcast_S64x512_S64x512x1_0_1 _ (ix3 b t e) (ix2 b t) fun a => ?_).trans ?_
  · match a with
    | ⟨0, _⟩ => show b.val = if (64 : Nat) = 1 then 0 else b.val; rw [if_neg (by decide)]
    | ⟨1, _⟩ => show t.val = if (512 : Nat) = 1 then 0 else t.val; rw [if_neg (by decide)]
  · show FloatOps.uitofp (F := Ideal) .f32 (FloatOps.cmpf (F := Ideal) (φ := .f32) .ogt (shiftL x1 (ix2 b t)) (maskF x1 (ix2 b t))) = _
    rw [shiftL_apply, maskF_apply]
    rfl

/-- A row at `(0, u)` is the vector's entry `u`. -/
theorem rowOf_apply (v : (⟨S128, .f32⟩ : BufTy).Contents (Elt Ideal)) (e : Fin 1) (u : Fin 128) : rowOf v (ix2 e u) = v (ix1 u) :=
  shapeCast_a_1a_apply v shapeCasts_S128_S1x128 e u

/-! ## The arrays as the region finds them -/

variable (m : (ℓ : Loc nD τ sig) → Buf (Elt Ideal) ℓ)

theorem V_start (c : Dev nD) : (V m c main_v11 : S64x512x1.Idx → EReal) = startArr (m ((c : Thread nD τ).loc main_arg1)) := by
  dsimp only [Gen.V, Gen.hostOps0]; after_results; rfl

theorem V_end (c : Dev nD) : (V m c main_v14 : S64x512x1.Idx → EReal) = endArr (m ((c : Thread nD τ).loc main_arg1)) := by
  dsimp only [Gen.V, Gen.hostOps0]; after_results; rfl

theorem V_bias (c : Dev nD) : (V m c main_v15 : S1x128.Idx → EReal) = rowOf (m ((c : Thread nD τ).loc main_arg3)) := by
  dsimp only [Gen.V, Gen.hostOps0]; after_results; rfl

theorem V_left (c : Dev nD) : (V m c main_v16 : S1x128.Idx → EReal) = rowOf (m ((c : Thread nD τ).loc main_arg4)) := by
  dsimp only [Gen.V, Gen.hostOps0]; after_results; rfl

theorem V_right (c : Dev nD) : (V m c main_v17 : S1x128.Idx → EReal) = rowOf (m ((c : Thread nD τ).loc main_arg5)) := by
  dsimp only [Gen.V, Gen.hostOps0]; after_results; rfl

end Cert.KernelIdeal.HostSide

end
-- ==== Proof.Whole.lean ====
/-
  The kernel's result array is the specification's energies.

  Grid step `t` works on batch row `t`: its blocks of `x` and of the two gate arrays are row `t` of those arrays, the
  weight and the three rows are whole at every step, and the step writes row `t` of the result. So what step `t` writes
  back is row `t` of the energies, the 64 rows cover the result, and the result array ends holding the energies.
-/
import proofs.«102657_j1254130451065_1_alg».proof.Proof.Gen.KernelIdeal.Value
import proofs.«102657_j1254130451065_1_alg».proof.Proof.Payload
import proofs.«102657_j1254130451065_1_alg».proof.Proof.HostSide
import proofs.«102657_j1254130451065_1_alg».proof.Proof.Spec
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Spec Cert.KernelIdeal.HostSide
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The energies of the arguments as launched. -/
abbrev E (c : Dev nD) : S64x512x128.Idx → EReal :=
  energy (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where each window's block sits at step `t`: the batch-row windows (`x`, the gates, the result) at row `t`, the others
    at the origin. Decided over the 64 steps. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## Each input block, read in the arguments -/

/-- The `x` block at step `t` is batch row `t` of `x`. -/
theorem xblk_apply (c : Dev nD) (t : Fin cfg0.N) (tt : Fin 64) (htt : tt.val = t.val) (p : Fin 512) (d : Fin 1024) :
    (iblk m c 0 t : Vec Ideal S1x512x1024 .f32) (ix3 (0 : Fin 1) p d)
      = (m ((c : Thread nD τ).loc main_arg0) : S64x512x1024.Idx → EReal) (ix3 tt p d) := by
  obtain ⟨⟨e0, e1, e2⟩, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = tt.val; rw [e0, htt]; omega
  | ⟨1, _⟩ => show win0_0.index t (1 : Fin 3) * 512 + 1 * p.val = p.val; rw [e1]; omega
  | ⟨2, _⟩ => show win0_0.index t (2 : Fin 3) * 1024 + 1 * d.val = d.val; rw [e2]; omega

/-- The weight block is the weight. -/
theorem wblk_apply (c : Dev nD) (t : Fin cfg0.N) (d : Fin 1024) (q : Fin 128) :
    (iblk m c 1 t : Vec Ideal S1024x128 .f32) (ix2 d q)
      = (m ((c : Thread nD τ).loc main_arg2) : S1024x128.Idx → EReal) (ix2 d q) := by
  obtain ⟨-, ⟨e0, e1⟩, -⟩ := idx_facts t
  unfold iblk
  rw [View.read_apply]
  show V m c main_arg2 _ = _
  rw [V_main_arg2]
  congr 1
  funext a
  apply Fin.ext
  match a with
  | ⟨0, _⟩ => show win0_1.index t (0 : Fin 2) * 1024 + 1 * d.val = d.val; rw [e0]; omega
  | ⟨1, _⟩ => show win0_1.index t (1 : Fin 2) * 128 + 1 * q.val = q.val; rw [e1]; omega

/-- The bias row's block at `(0, q)` is the bias at `q`. -/
theorem bblk_apply (c : Dev nD) (t : Fin cfg0.N) (q : Fin 128) :
    (iblk m c 2 t : Vec Ideal S1x128 .f32) (ix2 (0 : Fin 1) q)
      = (m ((c : Thread nD τ).loc main_arg3) : S128.Idx → EReal) (ix1 q) := by
  obtain ⟨-, -, ⟨e0, e1⟩, -⟩ := idx_facts t
  unfold iblk
  rw [View.read_apply]
  show V m c main_v15 _ = _
  rw [V_bias]
  refine Eq.trans (congrArg (rowOf _) ?_) (rowOf_apply _ (0 : Fin 1) q)
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The left row's block at `(0, q)` is the left vector at `q`. -/
theorem lblk_apply (c : Dev nD) (t : Fin cfg0.N) (q : Fin 128) :
    (iblk m c 3 t : Vec Ideal S1x128 .f32) (ix2 (0 : Fin 1) q)
      = (m ((c : Thread nD τ).loc main_arg4) : S128.Idx → EReal) (ix1 q) := by
  obtain ⟨-, -, -, ⟨e0, e1⟩, -⟩ := idx_facts t
  unfold iblk
  rw [View.read_apply]
  show V m c main_v16 _ = _
  rw [V_left]
  refine Eq.trans (congrArg (rowOf _) ?_) (rowOf_apply _ (0 : Fin 1) q)
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- The right row's block at `(0, q)` is the right vector at `q`. -/
theorem rblk_apply (c : Dev nD) (t : Fin cfg0.N) (q : Fin 128) :
    (iblk m c 4 t : Vec Ideal S1x128 .f32) (ix2 (0 : Fin 1) q)
      = (m ((c : Thread nD τ).loc main_arg5) : S128.Idx → EReal) (ix1 q) := by
  obtain ⟨-, -, -, -, ⟨e0, e1⟩, -⟩ := idx_facts t
  unfold iblk
  rw [View.read_apply]
  show V m c main_v17 _ = _
  rw [V_right]
  refine Eq.trans (congrArg (rowOf _) ?_) (rowOf_apply _ (0 : Fin 1) q)
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The first gate's block at `(0, p, 0)` is `start` at batch row `t`, step `p`. -/
theorem sblk_apply (c : Dev nD) (t : Fin cfg0.N) (tt : Fin 64) (htt : tt.val = t.val) (p : Fin 512) :
    (iblk m c 5 t : Vec Ideal S1x512x1 .f32) (ix3 (0 : Fin 1) p (0 : Fin 1))
      = startV (m ((c : Thread nD τ).loc main_arg1)) tt p := by
  obtain ⟨-, -, -, -, -, ⟨e0, e1, e2⟩, -⟩ := idx_facts t
  unfold iblk
  rw [View.read_apply]
  show V m c main_v11 _ = _
  rw [V_start]
  refine Eq.trans (congrArg (startArr _) ?_) (startArr_apply _ tt p (0 : Fin 1))
  funext a
  apply Fin.ext
  match a with
  | ⟨0, _⟩ => show win0_5.index t (0 : Fin 3) * 1 + 1 * 0 = tt.val; rw [e0, htt]; omega
  | ⟨1, _⟩ => show win0_5.index t (1 : Fin 3) * 512 + 1 * p.val = p.val; rw [e1]; omega
  | ⟨2, _⟩ => show win0_5.index t (2 : Fin 3) * 1 + 1 * 0 = 0; rw [e2]

/-- The second gate's block at `(0, p, 0)` is `end` at batch row `t`, step `p`. -/
theorem eblk_apply (c : Dev nD) (t : Fin cfg0.N) (tt : Fin 64) (htt : tt.val = t.val) (p : Fin 512) :
    (iblk m c 6 t : Vec Ideal S1x512x1 .f32) (ix3 (0 : Fin 1) p (0 : Fin 1))
      = endV (m ((c : Thread nD τ).loc main_arg1)) tt p := by
  obtain ⟨-, -, -, -, -, -, ⟨e0, e1, e2⟩, -⟩ := idx_facts t
  unfold iblk
  rw [View.read_apply]
  show V m c main_v14 _ = _
  rw [V_end]
  refine Eq.trans (congrArg (endArr _) ?_) (endArr_apply _ tt p (0 : Fin 1))
  funext a
  apply Fin.ext
  match a with
  | ⟨0, _⟩ => show win0_6.index t (0 : Fin 3) * 1 + 1 * 0 = tt.val; rw [e0, htt]; omega
  | ⟨1, _⟩ => show win0_6.index t (1 : Fin 3) * 512 + 1 * p.val = p.val; rw [e1]; omega
  | ⟨2, _⟩ => show win0_6.index t (2 : Fin 3) * 1 + 1 * 0 = 0; rw [e2]

/-! ## What step `t` stores is row `t` of the energies -/

/-- The stored value at an index of the step's block is the energy at the array index under it. -/
theorem block_entry (c : Dev nD) (t : Fin cfg0.N) (y : S1x512x128.Idx) (k : S64x512x128.Idx)
    (h0 : (k 0).val = t.val) (h1 : (k 1).val = (y 1).val) (h2 : (k 2).val = (y 2).val) :
    k0_pay1 (F := Ideal) (iblk m c 0 t) (iblk m c 1 t) (iblk m c 2 t) (iblk m c 5 t) (iblk m c 3 t) (iblk m c 6 t) (iblk m c 4 t) y
      = E m c k := by
  obtain ⟨e, p, q, rfl⟩ : ∃ (e : Fin 1) (p : Fin 512) (q : Fin 128), y = ix3 e p q := ⟨y 0, y 1, y 2, eq_ix3 y⟩
  obtain ⟨tt, p', q', rfl⟩ : ∃ (tt : Fin 64) (p' : Fin 512) (q' : Fin 128), k = ix3 tt p' q' := ⟨k 0, k 1, k 2, eq_ix3 k⟩
  obtain rfl : p' = p := Fin.ext h1
  obtain rfl : q' = q := Fin.ext h2
  refine (Pay.stored_apply (iblk m c 0 t) (iblk m c 1 t) (iblk m c 2 t) (iblk m c 5 t) (iblk m c 3 t) (iblk m c 6 t) (iblk m c 4 t) e p' q').trans ?_
  refine Eq.trans ?_ (energy_apply _ _ _ _ _ _ tt p' q').symm
  exact congrArg₂ (· + ·)
    (congrArg₂ (· + ·)
      (congrArg₂ (· + ·)
        (Finset.sum_congr rfl fun d _ => congrArg₂ (· * ·) (xblk_apply m c t tt h0 p' d) (wblk_apply m c t d q'))
        (bblk_apply m c t q'))
      (congrArg₂ (· * ·) (sblk_apply m c t tt h0 p') (lblk_apply m c t q')))
    (congrArg₂ (· * ·) (eblk_apply m c t tt h0 p') (rblk_apply m c t q'))

/-- WHAT STEP `t` WRITES BACK is block `t` of the energies. -/
theorem flushed_eq (c : Dev nD) (t : Fin cfg0.N) :
    (dats m 0 c).flushed 7 t = ((cfg0.win 7).blk t).view.read (Elt Ideal) (E m c) := by
  rw [Value.flushed7]
  unfold out0_7
  rw [View.canon_unit_zero hz3]
  simp only [View.ld_unit_zero (S := S1x512x1024) hz3, View.ld_unit_zero (S := S1024x128) hz2, View.ld_unit_zero (S := S1x128) hz2,
    View.ld_unit_zero (S := S1x512x1) hz3]
  obtain ⟨-, -, -, -, -, -, -, ⟨e0, e1, e2⟩⟩ := idx_facts t
  funext j
  refine block_entry m c t j (((cfg0.win 7).blk t).view.emb j) ?_ ?_ ?_
  · show win0_7.index t (0 : Fin 3) * 1 + 1 * (j 0).val = t.val
    have hj : (j 0).val < 1 := (j 0).isLt
    rw [e0]; omega
  · show win0_7.index t (1 : Fin 3) * 512 + 1 * (j 1).val = (j 1).val
    rw [e1]; omega
  · show win0_7.index t (2 : Fin 3) * 128 + 1 * (j 2).val = (j 2).val
    rw [e2]; omega

/-! ## The rows cover the result -/

/-- An index of the result is in step `t`'s block iff each coordinate is in the block's range on its axis. -/
theorem mem_blk (t : Fin cfg0.N) (i : S64x512x128.Idx) :
    i ∈ ((cfg0.win 7).blk t).view.set ↔ ∀ a : Fin 3, win0_7.index t a * S1x512x128.size a ≤ (i a).val ∧ (i a).val < win0_7.index t a * S1x512x128.size a + S1x512x128.size a := by
  show i ∈ ((View.whole main_v18).slice (win0_7.rect t)).set ↔ _
  rw [View.set_slice_whole, Rect.mem_set_unit]
  exact Iff.rfl

/-- Every index of the result lies in the block of the step that is its batch row. -/
theorem cover (i : S64x512x128.Idx) : ∃ t : Fin cfg0.N, (cfg0.win 7).flush t = true ∧ i ∈ ((cfg0.win 7).blk t).view.set := by
  have hi0 : (i 0).val < 64 := (i 0).isLt
  have hi1 : (i 1).val < 512 := (i 1).isLt
  have hi2 : (i 2).val < 128 := (i 2).isLt
  obtain ⟨t, ht⟩ : ∃ t : Fin cfg0.N, t.val = (i 0).val := ⟨⟨(i 0).val, by show (i 0).val < grid0.N; rw [N_0]; exact hi0⟩, rfl⟩
  obtain ⟨-, -, -, -, -, -, -, ⟨e0, e1, e2⟩⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; rw [e0]; omega
  | ⟨1, _⟩ => show win0_7.index t (1 : Fin 3) * 512 ≤ (i 1).val ∧ (i 1).val < win0_7.index t (1 : Fin 3) * 512 + 512; rw [e1]; omega
  | ⟨2, _⟩ => show win0_7.index t (2 : Fin 3) * 128 ≤ (i 2).val ∧ (i 2).val < win0_7.index t (2 : Fin 3) * 128 + 128; rw [e2]; omega

/-- THE RESULT ARRAY after the run holds the energies. -/
theorem final (c : Dev nD) : (dats m 0 c).arrAt 7 cfg0.N = E m c :=
  (dats m 0 c).arrAt_eq_of_cover 7 (E m c) (fun t _ => flushed_eq m c t) cover

/-- The kernel's run, read: the result at the energies of the arguments, the arguments unchanged. -/
theorem run : θ_run defs (onTc (τ := τ) (main (F := Ideal))) ⟨m, fun _ => 0, ρ⟩ fun r => ∀ c : Dev nD,
      r.2.mem ((c : Thread nD τ).loc main_v18) = E m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  Energies of a linear-chain model: a Pallas kernel against its jnp reference, over the extended reals.

  Both programs compute, for batch row `b`, step `t` and unit `u`,
    ((Σ_d x[b, t, d] · w[d, u]) + bias[u]) + start[b, t] · left[u] + end[b, t] · right[u]
  (`Spec.lean`), the two gates from the integer mask compared with itself shifted one step either way. The kernel
  computes the gates on the host at [64, 512] and hands them to a 64-step grid, one batch row a step, whose body
  multiplies the row's [512, 1024] block into the [1024, 128] weight and adds the three terms; the reference does the
  same over whole arrays with a trailing unit axis on the mask. Nothing is reassociated: the additions come in the same
  order on both sides, the matrix product into a zero accumulator and the host's contraction are the same sum over the
  contracted coordinate, and narrowing the product's operands is the identity on extended reals. So the precondition is
  not used by the value claim.

  `Whole.lean`: the kernel's result array holds the specification (the stored value entry by entry in `Payload.lean`,
  the host-prepared arrays in `HostSide.lean`). `RefIsSpec.lean`: so does the reference's result. The frames of the two
  kernel programs are the generated ones; the reference's frame is its run with the result dropped. The idealization
  rewrote nothing, so that conjunct is trivial.
-/
import proofs.«102657_j1254130451065_1_alg».proof.Defs
import proofs.«102657_j1254130451065_1_alg».proof.Proof.Gen.Kernel
import proofs.«102657_j1254130451065_1_alg».proof.Proof.Gen.Kernel.Skeleton
import proofs.«102657_j1254130451065_1_alg».proof.Proof.Gen.Kernel.Launch
import proofs.«102657_j1254130451065_1_alg».proof.Proof.Gen.Kernel.Points
import proofs.«102657_j1254130451065_1_alg».proof.Proof.Gen.Kernel.Frame
import proofs.«102657_j1254130451065_1_alg».proof.Proof.Gen.KernelIdeal
import proofs.«102657_j1254130451065_1_alg».proof.Proof.Gen.KernelIdeal.Skeleton
import proofs.«102657_j1254130451065_1_alg».proof.Proof.Gen.KernelIdeal.Launch
import proofs.«102657_j1254130451065_1_alg».proof.Proof.Gen.KernelIdeal.Points
import proofs.«102657_j1254130451065_1_alg».proof.Proof.Gen.KernelIdeal.Frame
import proofs.«102657_j1254130451065_1_alg».proof.Proof.Gen.ReferenceIdeal
import proofs.«102657_j1254130451065_1_alg».proof.Proof.Gen.Pre_finite_inputs
import proofs.«102657_j1254130451065_1_alg».proof.Proof.Gen.KernelIdeal.Value
import proofs.«102657_j1254130451065_1_alg».proof.Proof.RefRunPatched
import proofs.«102657_j1254130451065_1_alg».proof.Proof.RefReadPatched
import proofs.«102657_j1254130451065_1_alg».proof.Proof.RefIsSpec
import proofs.«102657_j1254130451065_1_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result's value dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result at the specification's energies of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.E m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, Cert.ReferenceIdeal.RefSpec.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
